-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S40x128 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S40x128 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 51
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S50000x128, .f32⟩
  | .hbm, ⟨48, _⟩ => ⟨S128x40, .f32⟩
  | .hbm, ⟨49, _⟩ => ⟨S1x40, .f32⟩
  | .hbm, ⟨50, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S128x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S128x40, .f32⟩
  | .hbm, ⟨60, _⟩ => ⟨S50000x40, .f32⟩
  | .hbm, ⟨61, _⟩ => ⟨S1x40, .f32⟩
  | .hbm, ⟨62, _⟩ => ⟨S50000x40, .f32⟩
  | .hbm, ⟨63, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.DenseSpec.lean ====
/- The dense part of one graph-convolution layer and of the classifier, index by index, on the extended reals.

   An entry of a matrix product is a row of the left matrix against a column of the right one, summed over the shared
   coordinate. A layer's entry (a, b) is the product of the aggregated features with one weight matrix, plus the product
   of the node's own features with another, plus the bias at b; the classifier has one product. The weights come already
   transposed (rows indexed by the contracted coordinate), and the bias as a function of the column alone, so that a
   bias kept as a vector and one kept as a one-row matrix are read the same way. -/
import Idealize.ShloMosaic.PureOps.Ideal
import Idealize.ShloMosaic.Lib.ValueIdx

noncomputable section

namespace Cert.DenseSpec

open Idealize.ShloMosaic Idealize.ShloMosaic.ValueIdx
open scoped BigOperators

/-- Entry (a, b) of the product: row a of x against column b of w. -/
def entry {M K N : Nat} (x : FVec Ideal ⟨2, ![M, K]⟩ .f32) (w : FVec Ideal ⟨2, ![K, N]⟩ .f32) (a : Fin M) (b : Fin N) : EReal :=
  ∑ k : Fin K, x (ix2 a k) * w (ix2 k b)

/-- Two products and a bias: (agg · wRel + h · wRoot) + bias, entry by entry. -/
def conv {M K N : Nat} (agg h : FVec Ideal ⟨2, ![M, K]⟩ .f32) (wRel wRoot : FVec Ideal ⟨2, ![K, N]⟩ .f32)
    (bias : Fin N → EReal) : FVec Ideal ⟨2, ![M, N]⟩ .f32 := fun i =>
  (entry agg wRel ⟨(i 0).val, idx2_lt0 i⟩ ⟨(i 1).val, idx2_lt1 i⟩ + entry h wRoot ⟨(i 0).val, idx2_lt0 i⟩ ⟨(i 1).val, idx2_lt1 i⟩)
    + bias ⟨(i 1).val, idx2_lt1 i⟩

theorem conv_ix2 {M K N : Nat} (agg h : FVec Ideal ⟨2, ![M, K]⟩ .f32) (wRel wRoot : FVec Ideal ⟨2, ![K, N]⟩ .f32)
    (bias : Fin N → EReal) (a : Fin M) (b : Fin N) :
    conv agg h wRel wRoot bias (ix2 a b) = (entry agg wRel a b + entry h wRoot a b) + bias b := rfl

/-- One product and a bias: h · w + bias, entry by entry. -/
def lin {M K N : Nat} (h : FVec Ideal ⟨2, ![M, K]⟩ .f32) (w : FVec Ideal ⟨2, ![K, N]⟩ .f32)
    (bias : Fin N → EReal) : FVec Ideal ⟨2, ![M, N]⟩ .f32 := fun i =>
  entry h w ⟨(i 0).val, idx2_lt0 i⟩ ⟨(i 1).val, idx2_lt1 i⟩ + bias ⟨(i 1).val, idx2_lt1 i⟩

theorem lin_ix2 {M K N : Nat} (h : FVec Ideal ⟨2, ![M, K]⟩ .f32) (w : FVec Ideal ⟨2, ![K, N]⟩ .f32)
    (bias : Fin N → EReal) (a : Fin M) (b : Fin N) :
    lin h w bias (ix2 a b) = entry h w a b + bias b := rfl

/-- The maximum with zero, entry by entry (zero kept as the float word it is printed as). -/
def relu {S : Shape} (v : FVec Ideal S .f32) : FVec Ideal S .f32 := fun i => max (v i) (Ideal.ofBits .f32 0x00000000#32)

theorem relu_apply {S : Shape} (v : FVec Ideal S .f32) (i : S.Idx) : relu v i = max (v i) (Ideal.ofBits .f32 0x00000000#32) := rfl

end Cert.DenseSpec

end
-- ==== Proof.Region0.lean ====
/- Region 0: the first graph-convolution layer's dense part, with the maximum against zero.

   The grid has ten points; point t reads rows 5000 t … 5000 t + 4999 of the aggregated features and of the node
   features, the two transposed weight matrices and the one-row bias whole, and writes the same rows of the output.
   At (p, q) of a block the body's value is max((Σₖ agg[p,k]·wRel[k,q] + Σₖ h[p,k]·wRoot[k,q]) + b[0,q], 0): the two
   products into a zero accumulator are plain sums over the contracted coordinate, the changes of float format are the
   identity on the extended reals. Reading each input block back as rows of its array, what point t writes is block t of
   ONE function of the arrays the region found, and the ten blocks cover the output (row r lies in block r / 5000): so
   the output array ends at that function. -/
import proofs.«100650_j60825326846155_1_alg».proof.Proof.Gen.KernelIdeal.Frame
import proofs.«100650_j60825326846155_1_alg».proof.Proof.LibDotPlain
import proofs.«100650_j60825326846155_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region0

open Cert.KernelIdeal Cert.KernelIdeal.Gen Cert.DenseSpec

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q): the two products' entries and the bias row at q, then the maximum with zero. -/
theorem pay_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = max ((entry x0 x2 p q + entry x1 x3 p q) + x4 (ix2 (0 : Fin 1) q)) (Ideal.ofBits .f32 0x00000000#32) := by
  unfold k0_pay1 entry
  simp only [maximumf_apply, addf_apply, broadcast_apply, shapeCast_self, matmul]
  rw [Cert.DotPlain.matmul_zero_rows_cols dot_S5000x128_S128x128_S5000x128_1_0_0_1_n_n rfl rfl rfl rfl rfl rfl,
    Cert.DotPlain.matmul_zero_rows_cols dot_S5000x128_S128x128_S5000x128_1_0_0_1_n_n rfl rfl rfl rfl rfl rfl,
    broadcastTo_1b_ab_apply]
  simp only [truncf_apply]
  rfl

/-- What the region's output array should end holding, of the arrays the region finds. -/
abbrev out (c : Dev nD) : FVec Ideal S50000x128 .f32 :=
  relu (conv (V c main_v13) (V c main_arg0) (V c main_v14) (V c main_v15) (fun q => (V c main_v16 : FVec Ideal S1x128 .f32) (ix2 (0 : Fin 1) q)))

/-- The printed index maps over the grid: the row-blocked windows are at block (t, 0), the resident ones at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features' block at point t is rows 5000 t … 5000 t + 4999 of their array. -/
theorem blk0_apply (c : Dev nD) (t : Fin cfg0.N) (p : Fin 5000) (k : Fin 128) (r : Fin 50000) (hr : r.val = t.val * 5000 + p.val) :
    (iblk0 V c 0 t : Vec Ideal S5000x128 .f32) (ix2 p k) = (V c main_v13 : Vec Ideal S50000x128 .f32) (ix2 r k) := by
  obtain ⟨e0, e1, -⟩ := idx_facts t
  unfold iblk0
  rw [View.read_apply]
  show V c main_v13 _ = V c main_v13 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The node features' block at point t is the same rows of the features' array. -/
theorem blk1_apply (c : Dev nD) (t : Fin cfg0.N) (p : Fin 5000) (k : Fin 128) (r : Fin 50000) (hr : r.val = t.val * 5000 + p.val) :
    (iblk0 V c 1 t : Vec Ideal S5000x128 .f32) (ix2 p k) = (V c main_arg0 : Vec Ideal S50000x128 .f32) (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The weight and bias windows hold their whole arrays at every point. -/
theorem blk2_apply (c : Dev nD) (t : Fin cfg0.N) (k : Fin 128) (q : Fin 128) :
    (iblk0 V c 2 t : Vec Ideal S128x128 .f32) (ix2 k q) = (V c main_v14 : Vec Ideal S128x128 .f32) (ix2 k q) := by
  obtain ⟨-, -, -, -, e0, e1, -⟩ := idx_facts t
  unfold iblk0
  rw [View.read_apply]
  show V c main_v14 _ = V c main_v14 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

theorem blk3_apply (c : Dev nD) (t : Fin cfg0.N) (k : Fin 128) (q : Fin 128) :
    (iblk0 V c 3 t : Vec Ideal S128x128 .f32) (ix2 k q) = (V c main_v15 : Vec Ideal S128x128 .f32) (ix2 k q) := by
  obtain ⟨-, -, -, -, -, -, e0, e1, -⟩ := idx_facts t
  unfold iblk0
  rw [View.read_apply]
  show V c main_v15 _ = V c main_v15 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

theorem blk4_apply (c : Dev nD) (t : Fin cfg0.N) (q : Fin 128) :
    (iblk0 V c 4 t : Vec Ideal S1x128 .f32) (ix2 (0 : Fin 1) q) = (V c main_v16 : Vec Ideal S1x128 .f32) (ix2 (0 : Fin 1) q) := by
  obtain ⟨-, -, -, -, -, -, -, -, e0, e1, -⟩ := idx_facts t
  unfold iblk0
  rw [View.read_apply]
  show V c main_v16 _ = V c main_v16 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-- What point t writes back is block t of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  show k0_pay1 (iblk0 V c 0 t) (iblk0 V c 1 t) (iblk0 V c 2 t) (iblk0 V c 3 t) (iblk0 V c 4 t) j = out V c (((cfg0.win 5).blk t).view.emb j)
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hN : cfg0.N = 10 := N_0
  have ht : t.val < 10 := hN ▸ t.isLt
  have hemb : ((cfg0.win 5).blk t).view.emb (ix2 p q) = (ix2 (⟨t.val * 5000 + p.val, by omega⟩ : Fin 50000) q : S50000x128.Idx) := by
    funext a
    apply Fin.ext
    match a with
    | ⟨0, _⟩ => show win0_5.index t 0 * 5000 + 1 * p.val = t.val * 5000 + p.val; rw [e0]; omega
    | ⟨1, _⟩ => show win0_5.index t 1 * 128 + 1 * q.val = q.val; rw [e1]; omega
  rw [hemb]
  refine (pay_apply (iblk0 V c 0 t) (iblk0 V c 1 t) (iblk0 V c 2 t) (iblk0 V c 3 t) (iblk0 V c 4 t) p q).trans ?_
  unfold out
  rw [relu_apply, conv_ix2, blk4_apply V c t q]
  unfold entry
  simp only [blk0_apply V c t p _ ⟨t.val * 5000 + p.val, by omega⟩ rfl, blk1_apply V c t p _ ⟨t.val * 5000 + p.val, by omega⟩ rfl, blk2_apply V c t, blk3_apply V c t]

/-- Index i lies in point t's output block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- The ten row blocks cover the array: row r is in block r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t 0 * 5000 ≤ (i 0).val ∧ (i 0).val < win0_5.index t 0 * 5000 + 5000; rw [e0, htv]; omega
  | ⟨1, _⟩ => show win0_5.index t 1 * 128 ≤ (i 1).val ∧ (i 1).val < win0_5.index t 1 * 128 + 128; rw [e1]; omega

/-- Region 0 leaves its output array at the layer's value of the arrays it found. -/
theorem final (c : Dev nD) : (dat0 V c).arrAt 5 cfg0.N = out V c :=
  (dat0 V c).arrAt_eq_of_cover 5 (out V c) (fun t _ => flushed_eq V c t) cover

end Cert.KernelIdeal.Region0
end
-- ==== Proof.Region1.lean ====
/- Region 1: the second graph-convolution layer's dense part (no maximum).

   The grid has ten points; point t reads rows 5000 t … 5000 t + 4999 of the aggregated hidden features and of the
   hidden features, the two transposed weight matrices and the one-row bias whole, and writes the same rows of the
   output. At (p, q) of a block the body's value is (Σₖ agg[p,k]·wRel[k,q] + Σₖ h[p,k]·wRoot[k,q]) + b[0,q]: each
   product into a zero accumulator is the plain sum over the contracted coordinate, and a change of float format is the
   identity on the extended reals. With each input block read back as rows of its array, point t writes block t of one
   function of the arrays the region found; row r lies in block r / 5000, so the ten blocks cover the output. -/
import proofs.«100650_j60825326846155_1_alg».proof.Proof.Gen.KernelIdeal.Frame
import proofs.«100650_j60825326846155_1_alg».proof.Proof.LibDotPlain
import proofs.«100650_j60825326846155_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region1

open Cert.KernelIdeal Cert.KernelIdeal.Gen Cert.DenseSpec

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q): the two products' entries and the bias row at q. -/
theorem pay_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q) = (entry x0 x2 p q + entry x1 x3 p q) + x4 (ix2 (0 : Fin 1) q) := by
  unfold k1_pay1 entry
  simp only [addf_apply, shapeCast_self, matmul]
  rw [Cert.DotPlain.matmul_zero_rows_cols dot_S5000x128_S128x128_S5000x128_1_0_0_1_n_n rfl rfl rfl rfl rfl rfl,
    Cert.DotPlain.matmul_zero_rows_cols dot_S5000x128_S128x128_S5000x128_1_0_0_1_n_n rfl rfl rfl rfl rfl rfl,
    broadcastTo_1b_ab_apply]
  simp only [truncf_apply]

/-- What the region's output array should end holding, of the arrays the region finds. -/
abbrev out (c : Dev nD) : FVec Ideal S50000x128 .f32 :=
  conv (V c main_v27) (V c main_v17) (V c main_v28) (V c main_v29) (fun q => (V c main_v30 : FVec Ideal S1x128 .f32) (ix2 (0 : Fin 1) q))

/-- The printed index maps over the grid: the row-blocked windows are at block (t, 0), the resident ones at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated features' block at point t is rows 5000 t … 5000 t + 4999 of their array. -/
theorem blk0_apply (c : Dev nD) (t : Fin cfg1.N) (p : Fin 5000) (k : Fin 128) (r : Fin 50000) (hr : r.val = t.val * 5000 + p.val) :
    (iblk1 V c 0 t : Vec Ideal S5000x128 .f32) (ix2 p k) = (V c main_v27 : Vec Ideal S50000x128 .f32) (ix2 r k) := by
  obtain ⟨e0, e1, -⟩ := idx_facts t
  unfold iblk1
  rw [View.read_apply]
  show V c main_v27 _ = V c main_v27 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The hidden features' block at point t is the same rows of the first layer's output. -/
theorem blk1_apply (c : Dev nD) (t : Fin cfg1.N) (p : Fin 5000) (k : Fin 128) (r : Fin 50000) (hr : r.val = t.val * 5000 + p.val) :
    (iblk1 V c 1 t : Vec Ideal S5000x128 .f32) (ix2 p k) = (V c main_v17 : Vec Ideal S50000x128 .f32) (ix2 r k) := by
  obtain ⟨-, -, e0, e1, -⟩ := idx_facts t
  unfold iblk1
  rw [View.read_apply]
  show V c main_v17 _ = V c main_v17 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- The weight and bias windows hold their whole arrays at every point. -/
theorem blk2_apply (c : Dev nD) (t : Fin cfg1.N) (k : Fin 128) (q : Fin 128) :
    (iblk1 V c 2 t : Vec Ideal S128x128 .f32) (ix2 k q) = (V c main_v28 : Vec Ideal S128x128 .f32) (ix2 k q) := by
  obtain ⟨-, -, -, -, e0, e1, -⟩ := idx_facts t
  unfold iblk1
  rw [View.read_apply]
  show V c main_v28 _ = V c main_v28 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

theorem blk3_apply (c : Dev nD) (t : Fin cfg1.N) (k : Fin 128) (q : Fin 128) :
    (iblk1 V c 3 t : Vec Ideal S128x128 .f32) (ix2 k q) = (V c main_v29 : Vec Ideal S128x128 .f32) (ix2 k q) := by
  obtain ⟨-, -, -, -, -, -, e0, e1, -⟩ := idx_facts t
  unfold iblk1
  rw [View.read_apply]
  show V c main_v29 _ = V c main_v29 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

theorem blk4_apply (c : Dev nD) (t : Fin cfg1.N) (q : Fin 128) :
    (iblk1 V c 4 t : Vec Ideal S1x128 .f32) (ix2 (0 : Fin 1) q) = (V c main_v30 : Vec Ideal S1x128 .f32) (ix2 (0 : Fin 1) q) := by
  obtain ⟨-, -, -, -, -, -, -, -, e0, e1, -⟩ := idx_facts t
  unfold iblk1
  rw [View.read_apply]
  show V c main_v30 _ = V c main_v30 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- What point t writes back is block t of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (iblk1 V c 0 t) (iblk1 V c 1 t) (iblk1 V c 2 t) (iblk1 V c 3 t) (iblk1 V c 4 t) j = out V c (((cfg1.win 5).blk t).view.emb j)
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hN : cfg1.N = 10 := N_1
  have ht : t.val < 10 := hN ▸ t.isLt
  have hemb : ((cfg1.win 5).blk t).view.emb (ix2 p q) = (ix2 (⟨t.val * 5000 + p.val, by omega⟩ : Fin 50000) q : S50000x128.Idx) := by
    funext a
    apply Fin.ext
    match a with
    | ⟨0, _⟩ => show win1_5.index t 0 * 5000 + 1 * p.val = t.val * 5000 + p.val; rw [e0]; omega
    | ⟨1, _⟩ => show win1_5.index t 1 * 128 + 1 * q.val = q.val; rw [e1]; omega
  rw [hemb]
  refine (pay_apply (iblk1 V c 0 t) (iblk1 V c 1 t) (iblk1 V c 2 t) (iblk1 V c 3 t) (iblk1 V c 4 t) p q).trans ?_
  unfold out
  rw [conv_ix2, blk4_apply V c t q]
  unfold entry
  simp only [blk0_apply V c t p _ ⟨t.val * 5000 + p.val, by omega⟩ rfl, blk1_apply V c t p _ ⟨t.val * 5000 + p.val, by omega⟩ rfl, blk2_apply V c t, blk3_apply V c t]

/-- Index i lies in point t's output block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The ten row blocks cover the array: row r is in block r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t 0 * 5000 ≤ (i 0).val ∧ (i 0).val < win1_5.index t 0 * 5000 + 5000; rw [e0, htv]; omega
  | ⟨1, _⟩ => show win1_5.index t 1 * 128 ≤ (i 1).val ∧ (i 1).val < win1_5.index t 1 * 128 + 128; rw [e1]; omega

/-- Region 1 leaves its output array at the layer's value of the arrays it found. -/
theorem final (c : Dev nD) : (dat1 V c).arrAt 5 cfg1.N = out V c :=
  (dat1 V c).arrAt_eq_of_cover 5 (out V c) (fun t _ => flushed_eq V c t) cover

end Cert.KernelIdeal.Region1

end
-- ==== Proof.Region2.lean ====
/- Region 2: the classifier, one product and a bias.

   The grid has ten points; point t reads rows 5000 t … 5000 t + 4999 of the second layer's output, the transposed
   128 × 40 weight matrix and the one-row bias whole, and writes the same rows of the 50000 × 40 result. At (p, q) of a
   block the body's value is Σₖ h[p,k]·w[k,q] + b[0,q]: the product into a zero accumulator is the plain sum over the
   contracted coordinate, and a change of float format is the identity on the extended reals. With the input block read
   back as rows of its array, point t writes block t of one function of the arrays the region found; row r lies in
   block r / 5000, so the ten blocks cover the result. -/
import proofs.«100650_j60825326846155_1_alg».proof.Proof.Gen.KernelIdeal.Frame
import proofs.«100650_j60825326846155_1_alg».proof.Proof.LibDotPlain
import proofs.«100650_j60825326846155_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Region2

open Cert.KernelIdeal Cert.KernelIdeal.Gen Cert.DenseSpec

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q): the product's entry and the bias row at q. -/
theorem pay_apply (x0 : Vec Ideal S5000x128 .f32) (x1 : Vec Ideal S128x40 .f32) (x2 : Vec Ideal S1x40 .f32)
    (p : Fin 5000) (q : Fin 40) :
    k2_pay1 x0 x1 x2 (ix2 p q) = entry x0 x1 p q + x2 (ix2 (0 : Fin 1) q) := by
  unfold k2_pay1 entry
  simp only [addf_apply, shapeCast_self, matmul]
  rw [Cert.DotPlain.matmul_zero_rows_cols dot_S5000x128_S128x40_S5000x40_1_0_0_1_n_n rfl rfl rfl rfl rfl rfl,
    broadcastTo_1b_ab_apply]
  simp only [truncf_apply]

/-- What the region's output array should end holding, of the arrays the region finds. -/
abbrev out (c : Dev nD) : FVec Ideal S50000x40 .f32 :=
  lin (V c main_v31) (V c main_v32) (fun q => (V c main_v33 : FVec Ideal S1x40 .f32) (ix2 (0 : Fin 1) q))

/-- The printed index maps over the grid: the row-blocked windows are at block (t, 0), the resident ones at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point t is rows 5000 t … 5000 t + 4999 of the second layer's output. -/
theorem blk0_apply (c : Dev nD) (t : Fin cfg2.N) (p : Fin 5000) (k : Fin 128) (r : Fin 50000) (hr : r.val = t.val * 5000 + p.val) :
    (iblk2 V c 0 t : Vec Ideal S5000x128 .f32) (ix2 p k) = (V c main_v31 : Vec Ideal S50000x128 .f32) (ix2 r k) := by
  obtain ⟨e0, e1, -⟩ := idx_facts t
  unfold iblk2
  rw [View.read_apply]
  show V c main_v31 _ = V c main_v31 _
  congr 1
  funext a
  apply Fin.ext
  match a with
  | ⟨0, _⟩ => show win2_0.index t 0 * 5000 + 1 * p.val = r.val; rw [e0, hr]; omega
  | ⟨1, _⟩ => show win2_0.index t 1 * 128 + 1 * k.val = k.val; rw [e1]; omega

/-- The weight and bias windows hold their whole arrays at every point. -/
theorem blk1_apply (c : Dev nD) (t : Fin cfg2.N) (k : Fin 128) (q : Fin 40) :
    (iblk2 V c 1 t : Vec Ideal S128x40 .f32) (ix2 k q) = (V c main_v32 : Vec Ideal S128x40 .f32) (ix2 k q) := by
  obtain ⟨-, -, e0, e1, -⟩ := idx_facts t
  unfold iblk2
  rw [View.read_apply]
  show V c main_v32 _ = V c main_v32 _
  congr 1
  funext a
  apply Fin.ext
  match a with
  | ⟨0, _⟩ => show win2_1.index t 0 * 128 + 1 * k.val = k.val; rw [e0]; omega
  | ⟨1, _⟩ => show win2_1.index t 1 * 40 + 1 * q.val = q.val; rw [e1]; omega

theorem blk2_apply (c : Dev nD) (t : Fin cfg2.N) (q : Fin 40) :
    (iblk2 V c 2 t : Vec Ideal S1x40 .f32) (ix2 (0 : Fin 1) q) = (V c main_v33 : Vec Ideal S1x40 .f32) (ix2 (0 : Fin 1) q) := by
  obtain ⟨-, -, -, -, e0, e1, -⟩ := idx_facts t
  unfold iblk2
  rw [View.read_apply]
  show V c main_v33 _ = V c main_v33 _
  congr 1
  funext a
  apply Fin.ext
  match a with
  | ⟨0, _⟩ => show win2_2.index t 0 * 1 + 1 * 0 = 0; rw [e0]
  | ⟨1, _⟩ => show win2_2.index t 1 * 40 + 1 * q.val = q.val; rw [e1]; omega

/-- What point t writes back is block t of `out`. -/
theorem flushed_eq (c : Dev nD) (t : Fin cfg2.N) :
    (dat2 V c).flushed 3 t = ((cfg2.win 3).blk t).view.read (Elt Ideal) (out V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz, View.ld_unit_zero (S := S1x40) hz]
  funext j
  show k2_pay1 (iblk2 V c 0 t) (iblk2 V c 1 t) (iblk2 V c 2 t) j = out V c (((cfg2.win 3).blk t).view.emb j)
  obtain ⟨p, q, rfl⟩ : ∃ (p : Fin 5000) (q : Fin 40), j = ix2 p q := ⟨j 0, j 1, eq_ix2 j⟩
  obtain ⟨-, -, -, -, -, -, e0, e1⟩ := idx_facts t
  have hN : cfg2.N = 10 := N_2
  have ht : t.val < 10 := hN ▸ t.isLt
  have hemb : ((cfg2.win 3).blk t).view.emb (ix2 p q) = (ix2 (⟨t.val * 5000 + p.val, by omega⟩ : Fin 50000) q : S50000x40.Idx) := by
    funext a
    apply Fin.ext
    match a with
    | ⟨0, _⟩ => show win2_3.index t 0 * 5000 + 1 * p.val = t.val * 5000 + p.val; rw [e0]; omega
    | ⟨1, _⟩ => show win2_3.index t 1 * 40 + 1 * q.val = q.val; rw [e1]; omega
  rw [hemb]
  refine (pay_apply (iblk2 V c 0 t) (iblk2 V c 1 t) (iblk2 V c 2 t) p q).trans ?_
  unfold out
  rw [lin_ix2, blk2_apply V c t q]
  unfold entry
  simp only [blk0_apply V c t p _ ⟨t.val * 5000 + p.val, by omega⟩ rfl, blk1_apply V c t]

/-- Index i lies in point t's output block iff each coordinate is in the block's range. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v34).slice (win2_3.rect t)).set ↔ _
  rw [View.set_slice_whole, Rect.mem_set_unit]
  exact Iff.rfl

/-- The ten row blocks cover the array: row r is in block r / 5000. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  obtain ⟨t, htv⟩ : ∃ t : Fin cfg2.N, t.val = (i 0).val / 5000 := ⟨⟨(i 0).val / 5000, by rw [hN]; omega⟩, rfl⟩
  obtain ⟨-, -, -, -, -, -, e0, e1⟩ := idx_facts t
  refine ⟨t, flush2_3 t, ?_⟩
  rw [mem_blk]
  intro a
  match a with
  | ⟨0, _⟩ => show win2_3.index t 0 * 5000 ≤ (i 0).val ∧ (i 0).val < win2_3.index t 0 * 5000 + 5000; rw [e0, htv]; omega
  | ⟨1, _⟩ => show win2_3.index t 1 * 40 ≤ (i 1).val ∧ (i 1).val < win2_3.index t 1 * 40 + 40; rw [e1]; omega

/-- Region 2 leaves the result array at the classifier's value of the arrays it found. -/
theorem final (c : Dev nD) : (dat2 V c).arrAt 3 cfg2.N = out V c :=
  (dat2 V c).arrAt_eq_of_cover 3 (out V c) (fun t _ => flushed_eq V c t) cover

end Cert.KernelIdeal.Region2

end
-- ==== Proof.KernelWhole.lean ====
/- The kernel program's result as one function of its arguments.

   The program is three dense regions among host operations. Before each of the two layer regions the host gathers rows
   of the current features at the (wrapped) source indices and adds them up at the target indices; it transposes the
   layer's two weight matrices and reshapes its bias to one row. Each region leaves its output array at the layer's
   (or the classifier's) value of the arrays it finds, so reading the buffers back through the host stretches, the
   result is classifier ∘ layer two ∘ layer one of the ten arguments, with the aggregation a shared opaque function. -/
import proofs.«100650_j60825326846155_1_alg».proof.Proof.Gen.KernelIdeal.Frame
import proofs.«100650_j60825326846155_1_alg».proof.Proof.Region0
import proofs.«100650_j60825326846155_1_alg».proof.Proof.Region1
import proofs.«100650_j60825326846155_1_alg».proof.Proof.Region2
import proofs.«100650_j60825326846155_1_alg».proof.Proof.DenseSpec
import Idealize.ShloMosaic.Lib.StableHlo.Run
import Idealize.ShloMosaic.Lib.ValueIdx
import Idealize.ShloMosaic.Lib.ValueLayout
import Idealize.ShloMosaic.PureOps.Ideal

set_option maxRecDepth 16384

noncomputable section

open Idealize.ShloMosaic Idealize.ShloMosaic.TcCoe Idealize.ShloMosaic.ValueIdx Idealize.SL.Sem Idealize.ShloMosaic.StableHlo

namespace Cert.KernelIdeal.Whole

open Cert.KernelIdeal Cert.KernelIdeal.Gen Cert.DenseSpec

/-! ## The host's pieces, as functions -/

/-- Row 0 of the edge array: the source index of every edge. -/
def srcOf (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- Row 1 of the edge array: the target index of every edge. -/
def dstOf (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The aggregation: rows of h gathered at the source indices (a negative one wrapped by the row count), added up at
    the target indices into zeros. -/
def aggOf (h : FVec Ideal S50000x128 .f32) (src dst : (⟨S600000, .i32⟩ : BufTy).Contents (Elt Ideal)) : FVec Ideal S50000x128 .f32 :=
  Host.scatterAdd (F := Ideal) scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A square weight matrix transposed. -/
def trOf (w : FVec Ideal S128x128 .f32) : FVec Ideal S128x128 .f32 := transpose S128x128 [1, 0] w transposes_S128x128_S128x128_1_0

/-- The classifier's weight matrix transposed. -/
def trOf40 (w : FVec Ideal S40x128 .f32) : FVec Ideal S128x40 .f32 := transpose S128x40 [1, 0] w transposes_S40x128_S128x40_1_0

/-- Layer one: the dense part of the aggregated and the own features, then the maximum with zero. -/
def layerOne (x0 : FVec Ideal S50000x128 .f32) (x1 : (⟨S2x600000, .i32⟩ : BufTy).Contents (Elt Ideal)) (x2 x3 : FVec Ideal S128x128 .f32)
    (x4 : FVec Ideal S128 .f32) : FVec Ideal S50000x128 .f32 :=
  relu (conv (aggOf x0 (srcOf x1) (dstOf x1)) x0 (trOf x2) (trOf x3) (fun q => x4 (ix1 q)))

/-- Layer two: the same dense part over layer one's output, no maximum. -/
def layerTwo (x0 : FVec Ideal S50000x128 .f32) (x1 : (⟨S2x600000, .i32⟩ : BufTy).Contents (Elt Ideal)) (x2 x3 : FVec Ideal S128x128 .f32)
    (x4 : FVec Ideal S128 .f32) (x5 x6 : FVec Ideal S128x128 .f32) (x7 : FVec Ideal S128 .f32) : FVec Ideal S50000x128 .f32 :=
  conv (aggOf (layerOne x0 x1 x2 x3 x4) (srcOf x1) (dstOf x1)) (layerOne x0 x1 x2 x3 x4) (trOf x5) (trOf x6) (fun q => x7 (ix1 q))

/-- The classifier over layer two's output. -/
def classify (x0 : FVec Ideal S50000x128 .f32) (x1 : (⟨S2x600000, .i32⟩ : BufTy).Contents (Elt Ideal)) (x2 x3 : FVec Ideal S128x128 .f32)
    (x4 : FVec Ideal S128 .f32) (x5 x6 : FVec Ideal S128x128 .f32) (x7 : FVec Ideal S128 .f32) (x8 : FVec Ideal S40x128 .f32)
    (x9 : FVec Ideal S40 .f32) : FVec Ideal S50000x40 .f32 :=
  lin (layerTwo x0 x1 x2 x3 x4 x5 x6 x7) (trOf40 x8) (fun q => x9 (ix1 q))

variable (m : (ℓ : Loc nD τ sig) → Buf (Elt Ideal) ℓ) (ρ : Dev nD → PrngReg)

/-! ## Before region 0 -/

theorem V1_v13 (c : Dev nD) : V1 m ρ c main_v13
    = aggOf (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results <;> rfl

theorem V1_arg0 (c : Dev nD) : V1 m ρ c main_arg0 = m ((c : Thread nD τ).loc main_arg0) := by
  show StableHlo.after hostOps0 (W0 m ρ c) (Proc.devRef .tc main_arg0) = _
  after_results <;> rfl

theorem V1_v14 (c : Dev nD) : V1 m ρ c main_v14 = trOf (m ((c : Thread nD τ).loc main_arg2)) := by
  show StableHlo.after hostOps0 (W0 m ρ c) (Proc.devRef .tc main_v14) = _
  after_results <;> rfl

theorem V1_v15 (c : Dev nD) : V1 m ρ c main_v15 = trOf (m ((c : Thread nD τ).loc main_arg3)) := by
  show StableHlo.after hostOps0 (W0 m ρ c) (Proc.devRef .tc main_v15) = _
  after_results <;> rfl

theorem V1_v16 (c : Dev nD) : V1 m ρ c main_v16 = shapeCast S1x128 (m ((c : Thread nD τ).loc main_arg4)) shapeCasts_S128_S1x128 := by
  show StableHlo.after hostOps0 (W0 m ρ c) (Proc.devRef .tc main_v16) = _
  after_results <;> rfl

/-- Region 0's output: layer one of the arguments. -/
theorem region0_out (c : Dev nD) : Region0.out (V1 m ρ) c
    = layerOne (m ((c : Thread nD τ).loc main_arg0)) (m ((c : Thread nD τ).loc main_arg1)) (m ((c : Thread nD τ).loc main_arg2))
        (m ((c : Thread nD τ).loc main_arg3)) (m ((c : Thread nD τ).loc main_arg4)) := by
  unfold Region0.out layerOne
  rw [V1_v13, V1_arg0, V1_v14, V1_v15, V1_v16]
  congr 2
  funext q
  exact shapeCast_a_1a_apply _ _ 0 q

/-! ## Between region 0 and region 1 -/

/-- Region 0 leaves its output buffer at layer one of the arguments. -/
theorem W2_v17 (c : Dev nD) : W2 m ρ c (Proc.devRef .tc main_v17)
    = layerOne (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Region0.final (V1 m ρ) c).trans (region0_out m ρ c))

theorem W2_v1 (c : Dev nD) : W2 m ρ c (Proc.devRef .tc main_v1) = srcOf (m ((c : Thread nD τ).loc main_arg1)) :=
  (W2_of_ne m ρ c main_v1 (by decide)).trans (by
    show StableHlo.after hostOps0 (W0 m ρ c) (Proc.devRef .tc main_v1) = _
    after_results <;> rfl)

theorem W2_v3 (c : Dev nD) : W2 m ρ c (Proc.devRef .tc main_v3) = dstOf (m ((c : Thread nD τ).loc main_arg1)) :=
  (W2_of_ne m ρ c main_v3 (by decide)).trans (by
    show StableHlo.after hostOps0 (W0 m ρ c) (Proc.devRef .tc main_v3) = _
    after_results <;> rfl)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results <;> rfl)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results <;> rfl)

theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)

theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)

theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)

theorem V3_v27 (c : Dev nD) : V3 m ρ c main_v27
    = aggOf (layerOne (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  show StableHlo.after hostOps1 (W2 m ρ c) (Proc.devRef .tc main_v27) = _
  after_results
  rw [W2_v1, W2_v3, W2_v17]
  rfl

theorem V3_v17 (c : Dev nD) : V3 m ρ c main_v17 = layerOne (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v17) = _
  after_results
  exact W2_v17 m ρ c

theorem V3_v28 (c : Dev nD) : V3 m ρ c main_v28 = trOf (m ((c : Thread nD τ).loc main_arg5)) := by
  show StableHlo.after hostOps1 (W2 m ρ c) (Proc.devRef .tc main_v28) = _
  after_results
  rw [W2_arg5]
  rfl

theorem V3_v29 (c : Dev nD) : V3 m ρ c main_v29 = trOf (m ((c : Thread nD τ).loc main_arg6)) := by
  show StableHlo.after hostOps1 (W2 m ρ c) (Proc.devRef .tc main_v29) = _
  after_results
  rw [W2_arg6]
  rfl

theorem V3_v30 (c : Dev nD) : V3 m ρ c main_v30 = shapeCast S1x128 (m ((c : Thread nD τ).loc main_arg7)) shapeCasts_S128_S1x128 := by
  show StableHlo.after hostOps1 (W2 m ρ c) (Proc.devRef .tc main_v30) = _
  after_results
  rw [W2_arg7]
  rfl

/-- Region 1's output: layer two of the arguments. -/
theorem region1_out (c : Dev nD) : Region1.out (V3 m ρ) c
    = layerTwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Region1.out layerTwo
  rw [V3_v27, V3_v17, V3_v28, V3_v29, V3_v30]
  congr 2
  funext q
  exact shapeCast_a_1a_apply _ _ 0 q

/-! ## Between region 1 and region 2 -/

theorem W4_v31 (c : Dev nD) : W4 m ρ c (Proc.devRef .tc main_v31)
    = layerTwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((Region1.final (V3 m ρ) c).trans (region1_out m ρ c))

theorem W4_arg8 (c : Dev nD) : W4 m ρ c (Proc.devRef .tc main_arg8) = (m ((c : Thread nD τ).loc main_arg8)) :=
  (W4_of_ne m ρ c main_arg8 (by decide)).trans (by
    show StableHlo.after hostOps1 (W2 m ρ c) (Proc.devRef .tc main_arg8) = _
    after_results
    exact W2_arg8 m ρ c)

theorem W4_arg9 (c : Dev nD) : W4 m ρ c (Proc.devRef .tc main_arg9) = (m ((c : Thread nD τ).loc main_arg9)) :=
  (W4_of_ne m ρ c main_arg9 (by decide)).trans (by
    show StableHlo.after hostOps1 (W2 m ρ c) (Proc.devRef .tc main_arg9) = _
    after_results
    exact W2_arg9 m ρ c)

theorem V5_v31 (c : Dev nD) : V5 m ρ c main_v31
    = layerTwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v31) = _
  after_results
  exact W4_v31 m ρ c

theorem V5_v32 (c : Dev nD) : V5 m ρ c main_v32 = trOf40 (m ((c : Thread nD τ).loc main_arg8)) := by
  show StableHlo.after hostOps2 (W4 m ρ c) (Proc.devRef .tc main_v32) = _
  after_results
  rw [W4_arg8]
  rfl

theorem V5_v33 (c : Dev nD) : V5 m ρ c main_v33 = shapeCast S1x40 (m ((c : Thread nD τ).loc main_arg9)) shapeCasts_S40_S1x40 := by
  show StableHlo.after hostOps2 (W4 m ρ c) (Proc.devRef .tc main_v33) = _
  after_results
  rw [W4_arg9]
  rfl

/-- Region 2's output: the classifier of the arguments. -/
theorem region2_out (c : Dev nD) : Region2.out (V5 m ρ) c
    = classify (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Region2.out classify
  rw [V5_v31, V5_v32, V5_v33]
  congr 1
  funext q
  exact shapeCast_a_1a_apply _ _ 0 q

/-- The result buffer after the last region: the classifier of the arguments. -/
theorem result (c : Dev nD) : W6 m ρ c (Proc.devRef .tc main_v34)
    = classify (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 3).trans ((Region2.final (V5 m ρ) c).trans (region2_out m ρ c))

end Cert.KernelIdeal.Whole

end
-- ==== Proof.RefLayers.lean ====
/- The reference program's stages as the dense layers of the specification.

   The reference computes, on the host, the same three stages: layer one = max(agg(x)·W1relᵀ + x·W1rootᵀ + b1, 0),
   layer two = agg(h1)·W2relᵀ + h1·W2rootᵀ + b2, result = h2·Wcᵀ + bc. Read at an index, a host product with one
   contracted axis is the sum over that axis of row times column, a bias broadcast over the rows is the bias at the
   column, and the zero splat is the zero word: so each stage is the specification's layer (or classifier) of the
   stages before it. The aggregation (gather at the sources, add up at the targets) is the same operations in both
   layers and is carried as one function, never opened. -/
import proofs.«100650_j60825326846155_1_alg».proof.Proof.Gen.ReferenceIdeal.Read
import proofs.«100650_j60825326846155_1_alg».proof.Proof.LibDotPlain
import proofs.«100650_j60825326846155_1_alg».proof.Proof.DenseSpec
import Idealize.ShloMosaic.Lib.ValueIdx
import Idealize.ShloMosaic.Lib.ValueLayout
import Idealize.ShloMosaic.PureOps.Ideal.Laws

set_option maxRecDepth 16384
noncomputable section
open Idealize.ShloMosaic Idealize.ShloMosaic.ValueIdx Idealize.SL.Sem
open scoped BigOperators

namespace Cert.ReferenceIdeal.Layers
open Cert.ReferenceIdeal Cert.ReferenceIdeal.Read Cert.DenseSpec

theorem dot128_apply (l : FVec Ideal S50000x128 .f32) (r : FVec Ideal S128x128 .f32) (a : Fin 50000) (b : Fin 128) :
    Host.dotGeneral dot_S50000x128_S128x128_S50000x128_1_0_0_1_n_n none l r (ix2 a b) = entry l r a b := by
  unfold entry
  simp only [Host.dotGeneral]
  exact Cert.DotPlain.dotGeneral_rows_cols dot_S50000x128_S128x128_S50000x128_1_0_0_1_n_n rfl rfl rfl rfl rfl rfl none _ l r a b

theorem bias128_apply (x4 : (⟨S128, .f32⟩ : BufTy).Contents (Elt Ideal)) (a : Fin 50000) (b : Fin 128) :
    val_main_v20 (F := Ideal) x4 (ix2 a b) = x4 (ix1 b) := by
  rw [val_main_v20_apply, val_main_v19_apply]
  congr 1
  funext d
  match d with
  | ⟨0, _⟩ => rfl

theorem layer1 (x0 : (⟨S50000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S128, .f32⟩ : BufTy).Contents (Elt Ideal)) :
    val_main_v22 (F := Ideal) x0 x1 x2 x3 x4
      = relu (conv (val_main_v13 (F := Ideal) x0 x1) x0 (val_main_v14 (F := Ideal) x2) (val_main_v16 (F := Ideal) x3) (fun q => x4 (ix1 q))) := by
  funext i
  obtain ⟨a, b, rfl⟩ : ∃ (a : Fin 50000) (b : Fin 128), i = ix2 a b := ⟨i 0, i 1, eq_ix2 i⟩
  rw [relu_apply, conv_ix2, val_main_v22_apply, val_main_v21_apply, val_main_v18_apply, bias128_apply]
  unfold val_main_v15 val_main_v17
  rw [dot128_apply, dot128_apply]
  rw [val_main_call0_v0_apply, val_main_call0_cst_apply]
  rfl

theorem dot40_apply (l : FVec Ideal S50000x128 .f32) (r : FVec Ideal S128x40 .f32) (a : Fin 50000) (b : Fin 40) :
    Host.dotGeneral dot_S50000x128_S128x40_S50000x40_1_0_0_1_n_n none l r (ix2 a b) = entry l r a b := by
  unfold entry
  simp only [Host.dotGeneral]
  exact Cert.DotPlain.dotGeneral_rows_cols dot_S50000x128_S128x40_S50000x40_1_0_0_1_n_n rfl rfl rfl rfl rfl rfl none _ l r a b

theorem bias128'_apply (x7 : (⟨S128, .f32⟩ : BufTy).Contents (Elt Ideal)) (a : Fin 50000) (b : Fin 128) :
    val_main_v39 (F := Ideal) x7 (ix2 a b) = x7 (ix1 b) := by
  rw [val_main_v39_apply, val_main_v38_apply]
  congr 1
  funext d
  match d with
  | ⟨0, _⟩ => rfl

theorem bias40_apply (x9 : (⟨S40, .f32⟩ : BufTy).Contents (Elt Ideal)) (a : Fin 50000) (b : Fin 40) :
    val_main_v44 (F := Ideal) x9 (ix2 a b) = x9 (ix1 b) := by
  rw [val_main_v44_apply, val_main_v43_apply]
  congr 1
  funext d
  match d with
  | ⟨0, _⟩ => rfl

/-- The aggregation both layers share: rows of h gathered at the (wrapped) source indices, added up at the target indices. -/
def agg (h : FVec Ideal S50000x128 .f32) (e : (⟨S2x600000, .i32⟩ : BufTy).Contents (Elt Ideal)) : FVec Ideal S50000x128 .f32 :=
  Host.scatterAdd (F := Ideal) scatter_S50000x128_S600000x1_S600000x128_1_0_0_1 (val_main_v11 (F := Ideal)) (val_main_v12 (F := Ideal) e)
    (Host.gather gather_S50000x128_S600000x1_S600000x128_1_0_n_n_0_1_1128 h (val_main_v9 (F := Ideal) e))

theorem agg_first (x0 : (⟨S50000x128, .f32⟩ : BufTy).Contents (Elt Ideal)) (x1 : (⟨S2x600000, .i32⟩ : BufTy).Contents (Elt Ideal)) :
    val_main_v13 (F := Ideal) x0 x1 = agg x0 x1 := by
  unfold val_main_v13 val_main_v10 agg
  rfl

theorem agg_second (x0 : (⟨S50000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S128, .f32⟩ : BufTy).Contents (Elt Ideal)) :
    val_main_v32 (F := Ideal) x0 x1 x2 x3 x4 = agg (val_main_v22 (F := Ideal) x0 x1 x2 x3 x4) x1 := by
  unfold val_main_v32 val_main_v29 agg
  rfl

theorem layer2 (x0 : (⟨S50000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v40 (F := Ideal) x0 x1 x2 x3 x4 x5 x6 x7
      = conv (val_main_v32 (F := Ideal) x0 x1 x2 x3 x4) (val_main_v22 (F := Ideal) x0 x1 x2 x3 x4) (val_main_v33 (F := Ideal) x5) (val_main_v35 (F := Ideal) x6) (fun q => x7 (ix1 q)) := by
  funext i
  obtain ⟨a, b, rfl⟩ : ∃ (a : Fin 50000) (b : Fin 128), i = ix2 a b := ⟨i 0, i 1, eq_ix2 i⟩
  rw [conv_ix2, val_main_v40_apply, val_main_v37_apply, bias128'_apply]
  unfold val_main_v34 val_main_v36
  rw [dot128_apply, dot128_apply]
  rfl

theorem layer3 (x0 : (⟨S50000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S40x128, .f32⟩ : BufTy).Contents (Elt Ideal)) (x9 : (⟨S40, .f32⟩ : BufTy).Contents (Elt Ideal)) :
    val_main_v45 (F := Ideal) x0 x1 x2 x3 x4 x5 x6 x7 x8 x9
      = lin (val_main_v40 (F := Ideal) x0 x1 x2 x3 x4 x5 x6 x7) (val_main_v41 (F := Ideal) x8) (fun q => x9 (ix1 q)) := by
  funext i
  obtain ⟨a, b, rfl⟩ : ∃ (a : Fin 50000) (b : Fin 40), i = ix2 a b := ⟨i 0, i 1, eq_ix2 i⟩
  rw [lin_ix2, val_main_v45_apply, bias40_apply]
  unfold val_main_v42
  rw [dot40_apply]
  rfl

end Cert.ReferenceIdeal.Layers
end
-- ==== Proof.Bridge.lean ====
/- The two programs compute one function.

   The kernel program's result is classifier ∘ layer two ∘ layer one of its arguments, each a dense layer of the
   specification over the shared aggregation; the reference's last stage is the same composition of the same layers.
   The aggregation, the transposes and the biases are the same operations on both sides, so once the reference's stages
   are written as the specification's layers the two terms coincide. -/
import proofs.«100650_j60825326846155_1_alg».proof.Proof.KernelWhole
import proofs.«100650_j60825326846155_1_alg».proof.Proof.RefLayers

set_option maxRecDepth 16384

noncomputable section

open Idealize.ShloMosaic Idealize.ShloMosaic.ValueIdx Idealize.SL.Sem

namespace Cert.Bridge

open Cert.DenseSpec

/-- The kernel's classifier of layer two of layer one is the reference's last stage, of the same ten arguments. -/
theorem classify_eq (x0 : (⟨Cert.ReferenceIdeal.S50000x128, .f32⟩ : BufTy).Contents (Elt Ideal)) (x1 : (⟨Cert.ReferenceIdeal.S2x600000, .i32⟩ : BufTy).Contents (Elt Ideal))
    (x2 x3 : (⟨Cert.ReferenceIdeal.S128x128, .f32⟩ : BufTy).Contents (Elt Ideal)) (x4 : (⟨Cert.ReferenceIdeal.S128, .f32⟩ : BufTy).Contents (Elt Ideal))
    (x5 x6 : (⟨Cert.ReferenceIdeal.S128x128, .f32⟩ : BufTy).Contents (Elt Ideal)) (x7 : (⟨Cert.ReferenceIdeal.S128, .f32⟩ : BufTy).Contents (Elt Ideal))
    (x8 : (⟨Cert.ReferenceIdeal.S40x128, .f32⟩ : BufTy).Contents (Elt Ideal)) (x9 : (⟨Cert.ReferenceIdeal.S40, .f32⟩ : BufTy).Contents (Elt Ideal)) :
    Cert.ReferenceIdeal.Read.val_main_v45 (F := Ideal) x0 x1 x2 x3 x4 x5 x6 x7 x8 x9
      = Cert.KernelIdeal.Whole.classify x0 x1 x2 x3 x4 x5 x6 x7 x8 x9 := by
  rw [Cert.ReferenceIdeal.Layers.layer3, Cert.ReferenceIdeal.Layers.layer2, Cert.ReferenceIdeal.Layers.agg_second,
    Cert.ReferenceIdeal.Layers.layer1, Cert.ReferenceIdeal.Layers.agg_first]
  rfl

end Cert.Bridge

end
-- ==== Proof.lean ====
/- A two-layer graph convolution with a linear classifier: the Pallas program against its jnp reference, over the
   extended reals.

   Both programs aggregate neighbour features on the host (gather at the source indices, add up at the target indices),
   and both compute, per layer, agg · W_relᵀ + h · W_rootᵀ + b (layer one followed by the maximum with zero), then
   h · Wcᵀ + bc. The kernel program does the dense part in three pallas_calls over ten row blocks of 5000 nodes; on the
   extended reals a product into a zero accumulator and the host's product are the same sum over the contracted
   coordinate, and a change of float format is the identity, so each region leaves the layer's value of the arrays it
   found and the result is the same composition of the same layers on both sides. No law of arithmetic beyond reading
   the operations at an index is used, so the finiteness of the inputs is never opened.

   The frames of the two kernel programs are the generated ones; the reference's frame is its generated run with the
   result dropped; the idealization rewrote no operation, so `preserves` is `True`. -/
import proofs.«100650_j60825326846155_1_alg».proof.Defs
import proofs.«100650_j60825326846155_1_alg».proof.Proof.Gen.Kernel
import proofs.«100650_j60825326846155_1_alg».proof.Proof.Gen.Kernel.Frame
import proofs.«100650_j60825326846155_1_alg».proof.Proof.Gen.KernelIdeal
import proofs.«100650_j60825326846155_1_alg».proof.Proof.Gen.KernelIdeal.Frame
import proofs.«100650_j60825326846155_1_alg».proof.Proof.Gen.ReferenceIdeal
import proofs.«100650_j60825326846155_1_alg».proof.Proof.Gen.ReferenceIdeal.Run
import proofs.«100650_j60825326846155_1_alg».proof.Proof.Gen.ReferenceIdeal.Read
import proofs.«100650_j60825326846155_1_alg».proof.Proof.Gen.Pre_finite_inputs
import proofs.«100650_j60825326846155_1_alg».proof.Proof.RunNamed
import proofs.«100650_j60825326846155_1_alg».proof.Proof.KernelWhole
import proofs.«100650_j60825326846155_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the classifier of layer two of layer one of the (agreeing) arguments. -/
theorem algebraic : Cert.algebraic_KernelIdeal_ReferenceIdeal := by
  intro m ρ m' ρ' _ hagree
  refine ⟨fun c => Cert.KernelIdeal.Whole.classify (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v45_eq, e0, e1, e2, e3, e4, e5, e6, e7, e8, e9]
    exact Cert.Bridge.classify_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
